-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_arg6 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x64 .f32) (main_arg5 : FVec F S64 .f32) (main_arg6 : FVec F S128x64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x64, .f32⟩
  | .hbm, ⟨58, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import Idealize.ShloMosaic.Lib.ValueIdx
import Idealize.ShloMosaic.PureOps.Ideal

/-! # One combine of a mean-aggregation graph layer, entry by entry

For a node `p` and an output feature `q` a layer combines the node's aggregated mean row and its own row:
`(Σ_k mean[p, k] · Wl[k, q] + b[q]) + Σ_k x[p, k] · Wr[k, q]`, the sums over the input features, in this grouping.
Both programs compute exactly this term at every entry — one with two matrix products per block of rows into a zero
accumulator, the other with two whole-array products — so it is stated once, over the extended reals, on plain
coordinates. -/

noncomputable section

namespace Cert.Sage

open Idealize.ShloMosaic Idealize.ShloMosaic.ValueIdx
open scoped BigOperators

/-- The combine at node `p`, output feature `q`: the mean row against `wl`, plus the bias, plus the node's own row
    against `wr`. -/
def combine {N C D : Nat} (mean x : (⟨2, ![N, C]⟩ : Shape).Idx → EReal) (wl wr : (⟨2, ![C, D]⟩ : Shape).Idx → EReal)
    (b : Fin D → EReal) (p : Fin N) (q : Fin D) : EReal :=
  ((∑ k : Fin C, mean (ix2 p k) * wl (ix2 k q)) + b q) + ∑ k : Fin C, x (ix2 p k) * wr (ix2 k q)

/-- A layer's output array with the cut at zero: the combine at every entry, cut at zero. -/
def layerRelu {N C D : Nat} (mean x : (⟨2, ![N, C]⟩ : Shape).Idx → EReal) (wl wr : (⟨2, ![C, D]⟩ : Shape).Idx → EReal)
    (b : Fin D → EReal) : (⟨2, ![N, D]⟩ : Shape).Idx → EReal :=
  fun i => max (combine mean x wl wr b (i 0) (i 1)) 0

/-- A layer's output array without the cut: the combine at every entry. -/
def layerLin {N C D : Nat} (mean x : (⟨2, ![N, C]⟩ : Shape).Idx → EReal) (wl wr : (⟨2, ![C, D]⟩ : Shape).Idx → EReal)
    (b : Fin D → EReal) : (⟨2, ![N, D]⟩ : Shape).Idx → EReal :=
  fun i => combine mean x wl wr b (i 0) (i 1)

end Cert.Sage

end
-- ==== Proof.Region0.lean ====
import proofs.«149354_j31817117729422_1_alg».proof.Proof.Gen.KernelIdeal.Frame
import proofs.«149354_j31817117729422_1_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The first layer's kernel: what its output array holds

The first pallas_call walks the 100000 nodes in 20 blocks of 5000 rows. At a block it loads the block's rows of the
mean array and of the node features, both weight matrices and the bias row whole, and stores
`max((mean_blk · Wl + b) + x_blk · Wr, 0)`, the two products into zero accumulators (the change to bf16 before a
product is the identity on extended reals). Entry `(p, q)` of a block is therefore the layer's combine of the
block's row `p` at feature `q`, cut at zero; block `t`'s row `p` is row `5000 t + p` of the arrays, and the 20
blocks tile the rows. So the output array after the region is the combine, cut at zero, of the arrays the region
found, at every entry. -/

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)
open scoped BigOperators

/-! ## The block product as a sum over the 128 input features -/

theorem lhs_axis0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs_axis0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_axis1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product into the zero accumulator, at row `p` and feature `q`: the sum over the input features. -/
theorem matmul_zero_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row [1, 128] spread over the block's rows, at `(p, q)`: the row's entry `q`. -/
theorem bias_apply (bb : Vec Ideal S1x128 .f32) (p : Fin 5000) (q : Fin 128) :
    broadcastTo S5000x128 (shapeCast S1x128 bb shapeCasts_S1x128_S1x128) broadcasts_S1x128_S5000x128 (ix2 p q) = bb (ix2 0 q) := by
  rw [shapeCast_self]
  exact broadcastTo_apply bb broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- THE BODY'S VALUE at row `p`, feature `q` of a block: the combine of the loaded blocks, cut at zero. -/
theorem pay_apply (xm xx : Vec Ideal S5000x128 .f32) (wl wr : Vec Ideal S128x128 .f32) (bb : Vec Ideal S1x128 .f32)
    (p : Fin 5000) (q : Fin 128) :
    k0_pay1 (F := Ideal) xm xx wl wr bb (ix2 p q) = max (combine xm xx wl wr (fun q => bb (ix2 0 q)) p q) 0 := by
  unfold k0_pay1
  simp only [maximumf_apply, addf_apply, broadcast_apply]
  rw [matmul_zero_apply, matmul_zero_apply, bias_apply]
  simp only [truncf_apply, shapeCast_self]
  show max _ (Ideal.ofBits .f32 0x00000000#32) = _
  rw [Ideal.ofBits_zero_f32]
  rfl

/-! ## From blocks to the array -/

theorem hz : (![0, 0] : Fin 2 → Nat) = fun _ => 0 := funext fun a => by fin_cases a <;> rfl

/-- The printed index maps, decided once over the 20 grid points: the row windows (the mean, the features, the output)
    sit at block `t` of axis 0, the weights and the bias at block 0 of both axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

variable (V : (c : Dev nD) → (b : Ref sig .tc) → Buf (Elt Ideal) ((c : Thread nD τ).loc b))

/-- Row `p` of block `t` of the mean array is row `5000 t + p` of the array. -/
theorem read_mean (c : Dev nD) (t : Fin cfg0.N) (p : Fin 5000) (k : Fin 128) (h : t.val * 5000 + p.val < 100000) :
    iblk0 V c 0 t (ix2 p k) = V c main_v24 (ix2 ⟨t.val * 5000 + p.val, h⟩ k) := by
  show V c main_v24 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same for the node features. -/
theorem read_feat (c : Dev nD) (t : Fin cfg0.N) (p : Fin 5000) (k : Fin 128) (h : t.val * 5000 + p.val < 100000) :
    iblk0 V c 1 t (ix2 p k) = V c main_arg0 (ix2 ⟨t.val * 5000 + p.val, h⟩ k) := by
  show V c main_arg0 (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 128 + 1 * k.val = k.val; omega

/-- The weight of the mean rows is loaded whole at every point. -/
theorem read_wl (c : Dev nD) (t : Fin cfg0.N) (k : Fin 128) (q : Fin 128) :
    iblk0 V c 2 t (ix2 k q) = V c main_arg1 (ix2 k q) := by
  show V c main_arg1 (((cfg0.win 2).blk t).view.emb (ix2 k q)) = _
  refine congrArg _ (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 128 + 1 * q.val = q.val; omega

/-- So is the bias row. -/
theorem read_bias (c : Dev nD) (t : Fin cfg0.N) (q : Fin 128) :
    iblk0 V c 3 t (ix2 0 q) = V c main_v25 (ix2 0 q) := by
  show V c main_v25 (((cfg0.win 3).blk t).view.emb (ix2 0 q)) = _
  refine congrArg _ (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 128 + 1 * q.val = q.val; omega

/-- And the weight of the node's own row. -/
theorem read_wr (c : Dev nD) (t : Fin cfg0.N) (k : Fin 128) (q : Fin 128) :
    iblk0 V c 4 t (ix2 k q) = V c main_arg3 (ix2 k q) := by
  show V c main_arg3 (((cfg0.win 4).blk t).view.emb (ix2 k q)) = _
  refine congrArg _ (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * q.val = q.val; omega

/-- The layer's output array, of the arrays the region finds. -/
abbrev out (c : Dev nD) : S100000x128.Idx → EReal :=
  layerRelu (V c main_v24) (V c main_arg0) (V c main_arg1) (V c main_arg3) (fun q => V c main_v25 (ix2 0 q))

/-- WHAT POINT `t` WRITES BACK is block `t` of the layer's output array. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1, ht⟩ := idx_facts t
  have hb : t.val * 5000 + p.val < 100000 := by have := p.isLt; omega
  show k0_pay1 (F := Ideal) (iblk0 V c 0 t) (iblk0 V c 1 t) (iblk0 V c 2 t) (iblk0 V c 4 t) (iblk0 V c 3 t) (ix2 p q)
    = out V c (((cfg0.win 5).blk t).view.emb (ix2 p q))
  have he : ((cfg0.win 5).blk t).view.emb (ix2 p q) = ix2 ⟨t.val * 5000 + p.val, hb⟩ q := funext fun a => Fin.ext (by
    match a with
    | ⟨0, _⟩ => show win0_5.index t (0 : Fin 2) * 5000 + 1 * p.val = t.val * 5000 + p.val; omega
    | ⟨1, _⟩ => show win0_5.index t (1 : Fin 2) * 128 + 1 * q.val = q.val; omega)
  rw [he]
  refine (pay_apply (iblk0 V c 0 t) (iblk0 V c 1 t) (iblk0 V c 2 t) (iblk0 V c 4 t) (iblk0 V c 3 t) p q).trans ?_
  show max (combine (iblk0 V c 0 t) (iblk0 V c 1 t) (iblk0 V c 2 t) (iblk0 V c 4 t) (fun q => iblk0 V c 3 t (ix2 0 q)) p q) 0
    = max (combine (V c main_v24) (V c main_arg0) (V c main_arg1) (V c main_arg3) (fun q => V c main_v25 (ix2 0 q)) ⟨t.val * 5000 + p.val, hb⟩ q) 0
  unfold combine
  simp only [read_mean V c t p _ hb, read_feat V c t p _ hb, read_wl, read_wr, read_bias]

/-- An entry of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every entry is in the block of the point its row falls in: row `r` in block `r / 5000`. -/
theorem cover (i : S100000x128.Idx) :
    ∃ t : Fin cfg0.N, (cfg0.win 5).flush t = true ∧ i ∈ ((cfg0.win 5).blk t).view.set := by
  have hi0 : (i 0).val < 100000 := idx2_lt0 i
  have hi1 : (i 1).val < 128 := (i 1).isLt
  have hN : cfg0.N = 20 := N_0
  have hlt : (i 0).val / 5000 < cfg0.N := by rw [hN]; omega
  refine ⟨⟨(i 0).val / 5000, hlt⟩, flush0_5 _, ?_⟩
  rw [mem_blk]
  obtain ⟨-, -, -, -, -, -, -, -, -, -, e0, e1, -⟩ := idx_facts ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- THE OUTPUT ARRAY after the region: the layer's combine, cut at zero, of the arrays the region found. -/
theorem final (c : Dev nD) : (dat0 V c).arrAt 5 cfg0.N = out V c :=
  (dat0 V c).arrAt_eq_of_cover 5 (out V c) (fun t _ => flushed_eq V c t) cover

end Cert.KernelIdeal.Region0

end
-- ==== Proof.Region1.lean ====
import proofs.«149354_j31817117729422_1_alg».proof.Proof.Gen.KernelIdeal.Frame
import proofs.«149354_j31817117729422_1_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The second layer's kernel: what its output array holds

The second pallas_call has the first one's shape with 64 output features and no cut at zero: over 20 blocks of 5000
rows it stores `(mean_blk · Wl + b) + h_blk · Wr`, the two products into zero accumulators, `mean` the second
aggregation's mean rows and `h` the first layer's output. Entry `(p, q)` of block `t` is the combine of row
`5000 t + p` at feature `q`, and the blocks tile the rows: the output array after the region is the combine of the
arrays the region found, at every entry. -/

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)
open scoped BigOperators

/-! ## The block product as a sum over the 128 input features -/

theorem lhs_axis0 (i : S5000x64.Idx) (κ : dot_S5000x128_S128x64_S5000x64_1_0_0_1_n_n.contr.Idx) :
    (dot_S5000x128_S128x64_S5000x64_1_0_0_1_n_n.lhsIdx i κ 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (κ : dot_S5000x128_S128x64_S5000x64_1_0_0_1_n_n.contr.Idx) :
    (dot_S5000x128_S128x64_S5000x64_1_0_0_1_n_n.lhsIdx i κ 1).val = (κ ⟨0, by decide⟩).val :=
  dot_S5000x128_S128x64_S5000x64_1_0_0_1_n_n.lhsIdx_val_of_single rfl i κ
theorem rhs_axis0 (i : S5000x64.Idx) (κ : dot_S5000x128_S128x64_S5000x64_1_0_0_1_n_n.contr.Idx) :
    (dot_S5000x128_S128x64_S5000x64_1_0_0_1_n_n.rhsIdx i κ 0).val = (κ ⟨0, by decide⟩).val :=
  dot_S5000x128_S128x64_S5000x64_1_0_0_1_n_n.rhsIdx_val_of_single rfl i κ
theorem rhs_axis1 (i : S5000x64.Idx) (κ : dot_S5000x128_S128x64_S5000x64_1_0_0_1_n_n.contr.Idx) :
    (dot_S5000x128_S128x64_S5000x64_1_0_0_1_n_n.rhsIdx i κ 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block's product into the zero accumulator, at row `p` and feature `q`: the sum over the input features. -/
theorem matmul_zero_apply {φ₁ φ₂ : FTy} (lhs : FVec Ideal S5000x128 φ₁) (rhs : FVec Ideal S128x64 φ₂) (p : Fin 5000) (q : Fin 64) :
    matmul dot_S5000x128_S128x64_S5000x64_1_0_0_1_n_n none lhs rhs (constant S5000x64 .f32 0x00000000#32) (ix2 p q)
      = ∑ k : Fin 128, lhs (ix2 p k) * rhs (ix2 k q) := by
  refine (Ideal.matmul_constant_zero_apply dot_S5000x128_S128x64_S5000x64_1_0_0_1_n_n none lhs rhs (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row [1, 64] spread over the block's rows, at `(p, q)`: the row's entry `q`. -/
theorem bias_apply (bb : Vec Ideal S1x64 .f32) (p : Fin 5000) (q : Fin 64) :
    broadcastTo S5000x64 (shapeCast S1x64 bb shapeCasts_S1x64_S1x64) broadcasts_S1x64_S5000x64 (ix2 p q) = bb (ix2 0 q) := by
  rw [shapeCast_self]
  exact broadcastTo_apply bb broadcasts_S1x64_S5000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- THE BODY'S VALUE at row `p`, feature `q` of a block: the combine of the loaded blocks. -/
theorem pay_apply (xm xh : Vec Ideal S5000x128 .f32) (wl wr : Vec Ideal S128x64 .f32) (bb : Vec Ideal S1x64 .f32)
    (p : Fin 5000) (q : Fin 64) :
    k1_pay1 (F := Ideal) xm xh wl wr bb (ix2 p q) = combine xm xh wl wr (fun q => bb (ix2 0 q)) p q := by
  unfold k1_pay1
  simp only [addf_apply]
  rw [matmul_zero_apply, matmul_zero_apply, bias_apply]
  simp only [truncf_apply, shapeCast_self]
  rfl

/-! ## From blocks to the array -/

theorem hz : (![0, 0] : Fin 2 → Nat) = fun _ => 0 := funext fun a => by fin_cases a <;> rfl

/-- The printed index maps, decided once over the 20 grid points: the row windows (the mean, the first layer's output,
    this layer's output) sit at block `t` of axis 0, the weights and the bias at block 0 of both axes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 20 :=
  (by decide +kernel : ∀ t : Fin grid1.N, _)

variable (V : (c : Dev nD) → (b : Ref sig .tc) → Buf (Elt Ideal) ((c : Thread nD τ).loc b))

/-- Row `p` of block `t` of the mean array is row `5000 t + p` of the array. -/
theorem read_mean (c : Dev nD) (t : Fin cfg1.N) (p : Fin 5000) (k : Fin 128) (h : t.val * 5000 + p.val < 100000) :
    iblk1 V c 0 t (ix2 p k) = V c main_v38 (ix2 ⟨t.val * 5000 + p.val, h⟩ k) := by
  show V c main_v38 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

/-- The same for the first layer's output. -/
theorem read_hidden (c : Dev nD) (t : Fin cfg1.N) (p : Fin 5000) (k : Fin 128) (h : t.val * 5000 + p.val < 100000) :
    iblk1 V c 1 t (ix2 p k) = V c main_v26 (ix2 ⟨t.val * 5000 + p.val, h⟩ k) := by
  show V c main_v26 (((cfg1.win 1).blk t).view.emb (ix2 p k)) = _
  refine congrArg _ (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 128 + 1 * k.val = k.val; omega

/-- The weight of the mean rows is loaded whole at every point. -/
theorem read_wl (c : Dev nD) (t : Fin cfg1.N) (k : Fin 128) (q : Fin 64) :
    iblk1 V c 2 t (ix2 k q) = V c main_arg4 (ix2 k q) := by
  show V c main_arg4 (((cfg1.win 2).blk t).view.emb (ix2 k q)) = _
  refine congrArg _ (funext fun a => Fin.ext ?_)
  obtain ⟨-, -, -, -, e0, e1, -⟩ := idx_facts t
  match a with
  | ⟨0, _⟩ => show win1_2.index t (0 : Fin 2) * 128 + 1 * k.val = k.val; omega
  | ⟨1, _⟩ => show win1_2.index t (1 : Fin 2) * 64 + 1 * q.val = q.val; omega

/-- So is the bias row. -/
theorem read_bias (c : Dev nD) (t : Fin cfg1.N) (q : Fin 64) :
    iblk1 V c 3 t (ix2 0 q) = V c main_v39 (ix2 0 q) := by
  show V c main_v39 (((cfg1.win 3).blk t).view.emb (ix2 0 q)) = _
  refine congrArg _ (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 64 + 1 * q.val = q.val; omega

/-- And the weight of the node's own row. -/
theorem read_wr (c : Dev nD) (t : Fin cfg1.N) (k : Fin 128) (q : Fin 64) :
    iblk1 V c 4 t (ix2 k q) = V c main_arg6 (ix2 k q) := by
  show V c main_arg6 (((cfg1.win 4).blk t).view.emb (ix2 k q)) = _
  refine congrArg _ (funext fun a => Fin.ext ?_)
  obtain ⟨-, -, -, -, -, -, -, -, e0, e1, -⟩ := idx_facts t
  match a with
  | ⟨0, _⟩ => show win1_4.index t (0 : Fin 2) * 128 + 1 * k.val = k.val; omega
  | ⟨1, _⟩ => show win1_4.index t (1 : Fin 2) * 64 + 1 * q.val = q.val; omega

/-- The layer's output array, of the arrays the region finds. -/
abbrev out (c : Dev nD) : S100000x64.Idx → EReal :=
  layerLin (V c main_v38) (V c main_v26) (V c main_arg4) (V c main_arg6) (fun q => V c main_v39 (ix2 0 q))

/-- WHAT POINT `t` WRITES BACK is block `t` of the layer's output array. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e0, e1, ht⟩ := idx_facts t
  have hb : t.val * 5000 + p.val < 100000 := by have := p.isLt; omega
  show k1_pay1 (F := Ideal) (iblk1 V c 0 t) (iblk1 V c 1 t) (iblk1 V c 2 t) (iblk1 V c 4 t) (iblk1 V c 3 t) (ix2 p q)
    = out V c (((cfg1.win 5).blk t).view.emb (ix2 p q))
  have he : ((cfg1.win 5).blk t).view.emb (ix2 p q) = ix2 ⟨t.val * 5000 + p.val, hb⟩ q := funext fun a => Fin.ext (by
    match a with
    | ⟨0, _⟩ => show win1_5.index t (0 : Fin 2) * 5000 + 1 * p.val = t.val * 5000 + p.val; omega
    | ⟨1, _⟩ => show win1_5.index t (1 : Fin 2) * 64 + 1 * q.val = q.val; omega)
  rw [he]
  refine (pay_apply (iblk1 V c 0 t) (iblk1 V c 1 t) (iblk1 V c 2 t) (iblk1 V c 4 t) (iblk1 V c 3 t) p q).trans ?_
  show combine (iblk1 V c 0 t) (iblk1 V c 1 t) (iblk1 V c 2 t) (iblk1 V c 4 t) (fun q => iblk1 V c 3 t (ix2 0 q)) p q
    = combine (V c main_v38) (V c main_v26) (V c main_arg4) (V c main_arg6) (fun q => V c main_v39 (ix2 0 q)) ⟨t.val * 5000 + p.val, hb⟩ q
  unfold combine
  simp only [read_mean V c t p _ hb, read_hidden V c t p _ hb, read_wl, read_wr, read_bias]

/-- An entry of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- Every entry is in the block of the point its row falls in: row `r` in block `r / 5000`. -/
theorem cover (i : S100000x64.Idx) :
    ∃ t : Fin cfg1.N, (cfg1.win 5).flush t = true ∧ i ∈ ((cfg1.win 5).blk t).view.set := by
  have hi0 : (i 0).val < 100000 := idx2_lt0 i
  have hi1 : (i 1).val < 64 := (i 1).isLt
  have hN : cfg1.N = 20 := N_1
  have hlt : (i 0).val / 5000 < cfg1.N := by rw [hN]; omega
  refine ⟨⟨(i 0).val / 5000, hlt⟩, flush1_5 _, ?_⟩
  rw [mem_blk]
  obtain ⟨-, -, -, -, -, -, -, -, -, -, e0, e1, -⟩ := idx_facts ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]; omega

/-- THE OUTPUT ARRAY after the region: the layer's combine of the arrays the region found. -/
theorem final (c : Dev nD) : (dat1 V c).arrAt 5 cfg1.N = out V c :=
  (dat1 V c).arrAt_eq_of_cover 5 (out V c) (fun t _ => flushed_eq V c t) cover

end Cert.KernelIdeal.Region1

end
-- ==== Proof.HostK.lean ====
import proofs.«149354_j31817117729422_1_alg».proof.Proof.Gen.KernelIdeal.Frame
import Idealize.ShloMosaic.Lib.StableHlo.Run
import Idealize.ShloMosaic.PureOps.Ideal

/-! # The host operations of the kernel's program, read back

Around its two pallas_calls the program computes, on the host, the degree of every node (a scatter-add of ones by
destination), its reciprocal `1 / max(deg, 1)` as a column, and for each layer the mean aggregation of a table `h` of
node rows: gather `h` at the edges' sources (a negative source shifted by the node count first), scatter-add the
gathered rows by destination into zeros, multiply every row by the node's reciprocal degree. This module names those
terms as functions of the edge array and reads each window's array, at both regions' entries, as such a term of the
launch memory. -/

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

/-- The edges' sources: row 0 of the edge array. -/
def src (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' destinations: row 1 of the edge array. -/
def dst (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The sources as a column of start indices, a negative one shifted by the node count. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The column of reciprocal degrees `1 / max(deg, 1)`, the degree a scatter-add of ones by destination. -/
def recipDeg (e : (⟨S2x1600000, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (maximumf (F := Ideal) (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (dst e))
          (broadcastInDim S1600000 ![] bcast_S_S1600000 (constant (F := Ideal) S_ .f32 0x3F800000#32)))
        (broadcastInDim S100000 ![] bcast_S_S100000 (constant (F := Ideal) S_ .f32 0x3F800000#32))))

/-- The mean aggregation of a table `h` of node rows over the edges `e`. -/
def meanAgg (h : (⟨S100000x128, .f32⟩ : BufTy).Contents (Elt Ideal)) (e : (⟨S2x1600000, .i32⟩ : BufTy).Contents (Elt Ideal)) :
    (⟨S100000x128, .f32⟩ : BufTy).Contents (Elt Ideal) :=
  mulf (F := Ideal) (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dst e))
      (Host.gather gather_S100000x128_S1600000x1_S1600000x128_1_0_n_n_0_1_1128 h (srcCol e)))
    (broadcastInDim S100000x128 ![0, 1] bcast_S100000x1_S100000x128_0_1 (recipDeg e))

variable (m : (ℓ : Loc nD τ sig) → Buf (Elt Ideal) ℓ) (ρ : Dev nD → PrngReg)

/-! ## Region 0's entry -/

set_option maxHeartbeats 2000000 in
theorem V1_mean (c : Dev nD) :
    V1 m ρ c main_v24 = meanAgg (m ((c : Thread nD τ).loc main_arg0)) (m ((c : Thread nD τ).loc main_arg7)) := by
  show StableHlo.after hostOps0 (W0 m ρ c) (Proc.devRef .tc main_v24) = _
  after_results_simp
  rfl

theorem V1_bias (c : Dev nD) :
    V1 m ρ c main_v25 = shapeCast _ (m ((c : Thread nD τ).loc main_arg2)) shapeCasts_S128_S1x128 := by
  show StableHlo.after hostOps0 (W0 m ρ c) (Proc.devRef .tc main_v25) = _
  after_results
  rfl

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg3 (c : Dev nD) : V1 m ρ c main_arg3 = m ((c : Thread nD τ).loc main_arg3) := by
  show StableHlo.after hostOps0 (W0 m ρ c) (Proc.devRef .tc main_arg3) = _
  after_results

/-! ## What the first stretch leaves for the second -/

theorem W1_src (c : Dev nD) : W1 m ρ c (Proc.devRef .tc main_v1) = src (m ((c : Thread nD τ).loc main_arg7)) := by
  show StableHlo.after hostOps0 (W0 m ρ c) (Proc.devRef .tc main_v1) = _
  after_results
  rfl
theorem W1_dst (c : Dev nD) : W1 m ρ c (Proc.devRef .tc main_v3) = dst (m ((c : Thread nD τ).loc main_arg7)) := by
  show StableHlo.after hostOps0 (W0 m ρ c) (Proc.devRef .tc main_v3) = _
  after_results
  rfl
theorem W1_recipDeg (c : Dev nD) : W1 m ρ c (Proc.devRef .tc main_v12) = recipDeg (m ((c : Thread nD τ).loc main_arg7)) := by
  show StableHlo.after hostOps0 (W0 m ρ c) (Proc.devRef .tc main_v12) = _
  after_results
  rfl
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results

/-! ## Region 1's entry -/

set_option maxHeartbeats 2000000 in
theorem V3_mean (c : Dev nD) :
    V3 m ρ c main_v38 = meanAgg (W2 m ρ c (Proc.devRef .tc main_v26)) (m ((c : Thread nD τ).loc main_arg7)) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    W1_src, W1_dst, W1_recipDeg]
  rfl

theorem V3_hidden (c : Dev nD) : V3 m ρ c main_v26 = W2 m ρ c (Proc.devRef .tc main_v26) := by
  show StableHlo.after hostOps1 (W2 m ρ c) (Proc.devRef .tc main_v26) = _
  after_results

theorem V3_arg4 (c : Dev nD) : V3 m ρ c main_arg4 = m ((c : Thread nD τ).loc main_arg4) := by
  show StableHlo.after hostOps1 (W2 m ρ c) (Proc.devRef .tc main_arg4) = _
  after_results
  rw [W2_of_ne m ρ c main_arg4 (by decide), W1_arg4]

theorem V3_arg6 (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide), W1_arg6]

theorem V3_bias (c : Dev nD) :
    V3 m ρ c main_v39 = shapeCast _ (m ((c : Thread nD τ).loc main_arg5)) shapeCasts_S64_S1x64 := by
  show StableHlo.after hostOps1 (W2 m ρ c) (Proc.devRef .tc main_v39) = _
  after_results
  rw [W2_of_ne m ρ c main_arg5 (by decide), W1_arg5]
  rfl

end Cert.KernelIdeal.HostK

end
-- ==== Proof.Law.lean ====
import Idealize.ShloMosaic.PureOps.Ideal
import Idealize.ShloMosaic.PureOps.Ideal.Laws

/-! # The one law of the mean aggregation over the extended reals

A mean over a node's incoming edges is the sum of the edges' rows divided by the node's degree, the degree raised to at
least one. One program multiplies the sum by the reciprocal `1 / max(deg, 1)`, the other divides the sum by
`max(deg, 1)`. On the extended reals the two agree for EVERY value of the sum, an infinite one included, as soon as
the divisor is a nonzero real: division by a real `d ≠ 0` is the product with the real `1 / d`. The degree is a count
of edges, a finite sum of ones, hence a real; so `max(deg, 1)` is a real that is at least one. -/

noncomputable section

namespace Cert.Sage

open Idealize.ShloMosaic
open scoped BigOperators

/-- The single-precision pattern of one denotes the real one. -/
theorem one_f32 : Ideal.ofBits .f32 0x3F800000#32 = (1 : EReal) := by
  simp [Ideal.ofBits, Ideal.ieee, -EReal.coe_mul]; norm_num

/-- A count — a finite sum of ones and zeros — added to a real is a real. (The test's decision procedure is an explicit
    argument, so that the statement meets a goal's sum as it is written.) -/
theorem count_real {ι : Type*} (s : Finset ι) (p : ι → Prop) (d : ∀ e, Decidable (p e)) (z : EReal)
    (hz : ∃ r0 : ℝ, z = (r0 : EReal)) :
    ∃ r : ℝ, z + (∑ e ∈ s, @ite EReal (p e) (d e) 1 0) = (r : EReal) := by
  classical
  induction s using Finset.induction_on with
  | empty => obtain ⟨r0, rfl⟩ := hz; exact ⟨r0, by simp⟩
  | insert a s ha ih =>
    obtain ⟨r, hr⟩ := ih
    rw [Finset.sum_insert ha, add_left_comm, hr]
    by_cases h : p a
    · exact ⟨1 + r, by rw [if_pos h]; norm_cast⟩
    · exact ⟨r, by rw [if_neg h, zero_add]⟩

/-- The larger of a real and one is a real that is not zero. -/
theorem max_one_real (r : ℝ) : max (r : EReal) 1 = ((max r 1 : ℝ) : EReal) ∧ max r 1 ≠ 0 :=
  ⟨by rw [← EReal.coe_one]; exact (EReal.coe_strictMono.monotone.map_max).symm,
   ne_of_gt (lt_of_lt_of_le one_pos (le_max_right r 1))⟩

/-- THE LAW: for a real `s`, multiplying by the reciprocal of `max s 1` is dividing by `max s 1`, whatever the
    extended real `a` is. -/
theorem mul_recip_eq_div (a s : EReal) (hs : ∃ r : ℝ, s = (r : EReal)) :
    a * Ideal.div 1 (max s 1) = Ideal.div a (max s 1) := by
  obtain ⟨r, rfl⟩ := hs
  obtain ⟨hm, hne⟩ := max_one_real r
  rw [hm, Ideal.div_coe hne, Ideal.div_coe hne, one_mul]

end Cert.Sage

end
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.RefValue.lean ====
import proofs.«149354_j31817117729422_1_alg».proof.Proof.Gen.ReferenceIdeal.Run
import proofs.«149354_j31817117729422_1_alg».proof.Proof.Gen.ReferenceIdeal.Read
import proofs.«149354_j31817117729422_1_alg».proof.Proof.Spec
import proofs.«149354_j31817117729422_1_alg».proof.Proof.Law
import proofs.«149354_j31817117729422_1_alg».proof.Proof.LibSegmentScatter

/-! # The reference, layer by layer

The reference computes each layer as `mean @ Wl + b + x @ Wr` with `mean = agg / max(deg, 1)`, the aggregation a
gather of node rows at the edges' sources scattered-and-added by destination, the degree a scatter-add of ones. Read
one operation at a time (the generated stages), its first layer's result is the layer's combine, cut at zero, of the
mean rows and the node features, and its final result the combine of the second mean rows and the first layer's
result. Two more facts are stated here for the other side: the degree is a real number (a count of edges), and
therefore a table of rows times the column `1 / max(deg, 1)` IS the table divided by `max(deg, 1)`. -/

noncomputable section

namespace Cert.ReferenceIdeal.RefValue

open Cert.ReferenceIdeal Cert.ReferenceIdeal.Gen Cert.ReferenceIdeal.Read Cert.Sage
open Idealize.ShloMosaic Idealize.ShloMosaic.TcCoe Idealize.ShloMosaic.ValueIdx Idealize.SL.Sem
open scoped BigOperators

/-! ## The degree is a real -/

/-- The printed dimension numbers of the degree's scatter are the entry scatter's: one indexed axis, no window axis. -/
theorem scatterE_eq : scatter_S100000_S1600000x1_S1600000_n_0_0_1
    = Cert.LibSegmentScatter.entryScatterDims 100000 1600000 scatter_S100000_S1600000x1_S1600000_n_0_0_1_wf := rfl

/-- At the extended reals the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- A quotient of two arrays at an index is the quotient of the entries. -/
theorem hostDivf_apply {s : Shape} (a b : FVec Ideal s .f32) (i : s.Idx) :
    Host.divf (F := Ideal) a b i = Ideal.div (a i) (b i) := rfl

/-- A scatter-add of ones into zeros, by any column of start indices, holds a count at every node: a real. -/
theorem count_entries (idx : (⟨S1600000x1, .i32⟩ : BufTy).Contents (Elt Ideal)) (j : S100000.Idx) :
    ∃ r : ℝ, (Host.scatterAdd (F := Ideal) (φ := .f32) scatter_S100000_S1600000x1_S1600000_n_0_0_1 (val_main_v15 (F := Ideal)) idx
      (val_main_v14 (F := Ideal)) j : EReal) = (r : EReal) := by
  obtain ⟨v, rfl⟩ : ∃ v : Fin 100000, j = ix1 v := ⟨j 0, eq_ix1 j⟩
  rw [scatterAdd_ideal, scatterE_eq, Cert.LibSegmentScatter.scatterAdd_entries_apply]
  simp only [val_main_v15_apply, val_main_cst_2_apply, val_main_v14_apply, val_main_cst_1_apply, Ideal.ofBits_def,
    Ideal.ofBits_zero_f32, one_f32]
  exact count_real Finset.univ _ _ 0 ⟨0, EReal.coe_zero.symm⟩

/-- The degree of every node is a real. -/
theorem deg_real (x7 : (⟨S2x1600000, .i32⟩ : BufTy).Contents (Elt Ideal)) (j : S100000.Idx) :
    ∃ r : ℝ, val_main_v17 (F := Ideal) x7 j = (r : EReal) :=
  count_entries (val_main_v16 (F := Ideal) x7) j

/-! ## Times the reciprocal column is divided by the column -/

/-- A column over the nodes, spread over the 128 features, read at an entry: the column at the entry's node. -/
theorem spread_apply (y : (⟨S100000, .f32⟩ : BufTy).Contents (Elt Ideal)) (i : S100000x128.Idx) :
    broadcastInDim S100000x128 ![0, 1] bcast_S100000x1_S100000x128_0_1
      (broadcastInDim S100000x1 ![0] bcast_S100000_S100000x1_0 y) i = y (idx_main_v20 (idx_main_v21 i)) := by
  refine (broadcastInDim_apply _ bcast_S100000x1_S100000x128_0_1 _ i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 y (idx_main_v21 i) (idx_main_v20 (idx_main_v21 i)) (fun a => match a with
    | ⟨0, _⟩ => by show (i 0).val = if (100000 : Nat) = 1 then 0 else (i 0).val; rw [if_neg (by decide)])

/-- THE MEAN, both ways: a table of rows times the spread column `1 / max(deg, 1)` is the table divided by the spread
    column `max(deg, 1)`. -/
theorem mul_recip_eq (a : FVec Ideal S100000x128 .f32) (x7 : (⟨S2x1600000, .i32⟩ : BufTy).Contents (Elt Ideal)) :
    mulf (F := Ideal) (φ := .f32) a (broadcastInDim S100000x128 ![0, 1] bcast_S100000x1_S100000x128_0_1
      (broadcastInDim S100000x1 ![0] bcast_S100000_S100000x1_0
        (Host.divf (F := Ideal) (φ := .f32) (val_main_v18 (F := Ideal)) (val_main_v19 (F := Ideal) x7))))
    = Host.divf (F := Ideal) (φ := .f32) a (val_main_v21 (F := Ideal) x7) := by
  funext i
  rw [mulf_apply, spread_apply, hostDivf_apply, hostDivf_apply, val_main_v21_apply, val_main_v20_apply, val_main_v19_apply,
    val_main_v18_apply, val_main_cst_3_apply]
  simp only [Ideal.ofBits_def, one_f32, Ideal.maximumf_def]
  exact mul_recip_eq_div _ _ (deg_real x7 _)

/-! ## The layers -/

/-- The first layer's result is the combine, cut at zero, of the mean rows and the node features. -/
theorem hidden_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x1600000, .i32⟩ : BufTy).Contents (Elt Ideal)) :
    val_main_v29 (F := Ideal) x0 x1 x2 x3 x7
      = layerRelu (val_main_v22 (F := Ideal) x0 x7) x0 x1 x3 (fun q => x2 (ix1 q)) := by
  funext i
  obtain ⟨p, q, rfl⟩ : ∃ (p : Fin 100000) (q : Fin 128), i = ix2 p q := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  have el : ∀ k : Fin 128, lidx_main_v23 (ix2 p q) k = ix2 p k := fun k => funext fun a => by
    match a with
    | ⟨0, _⟩ => rfl
    | ⟨1, _⟩ => rfl
  have er : ∀ k : Fin 128, ridx_main_v23 (ix2 p q) k = ix2 k q := fun k => funext fun a => by
    match a with
    | ⟨0, _⟩ => rfl
    | ⟨1, _⟩ => rfl
  have el' : ∀ k : Fin 128, lidx_main_v27 (ix2 p q) k = ix2 p k := el
  have er' : ∀ k : Fin 128, ridx_main_v27 (ix2 p q) k = ix2 k q := er
  have eb : idx_main_v24 (idx_main_v25 (ix2 p q)) = ix1 q := funext fun a => by
    match a with
    | ⟨0, _⟩ => rfl
  simp only [el, er, el', er', eb, Ideal.ofBits_def, Ideal.ofBits_zero_f32, Ideal.maximumf_def, Ideal.addf_def]
  rfl

/-- The final result is the combine of the second mean rows and the first layer's result. -/
theorem out_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S2x1600000, .i32⟩ : BufTy).Contents (Elt Ideal)) :
    val_main_v58 (F := Ideal) x0 x1 x2 x3 x4 x5 x6 x7
      = layerLin (val_main_v52 (F := Ideal) x0 x1 x2 x3 x7) (val_main_v29 (F := Ideal) x0 x1 x2 x3 x7) x4 x6 (fun q => x5 (ix1 q)) := by
  funext i
  obtain ⟨p, q, rfl⟩ : ∃ (p : Fin 100000) (q : Fin 64), i = ix2 p q := ⟨i 0, i 1, eq_ix2 i⟩
  rw [val_main_v58_apply, val_main_v56_apply, val_main_v53_apply, val_main_v57_apply, val_main_v55_apply, val_main_v54_apply]
  have el : ∀ k : Fin 128, lidx_main_v53 (ix2 p q) k = ix2 p k := fun k => funext fun a => by
    match a with
    | ⟨0, _⟩ => rfl
    | ⟨1, _⟩ => rfl
  have er : ∀ k : Fin 128, ridx_main_v53 (ix2 p q) k = ix2 k q := fun k => funext fun a => by
    match a with
    | ⟨0, _⟩ => rfl
    | ⟨1, _⟩ => rfl
  have el' : ∀ k : Fin 128, lidx_main_v57 (ix2 p q) k = ix2 p k := el
  have er' : ∀ k : Fin 128, ridx_main_v57 (ix2 p q) k = ix2 k q := er
  have eb : idx_main_v54 (idx_main_v55 (ix2 p q)) = ix1 q := funext fun a => by
    match a with
    | ⟨0, _⟩ => rfl
  simp only [el, er, el', er', eb, Ideal.addf_def]
  rfl

/-- The run's result term in that form. -/
theorem res_eq (m : (ℓ : Loc nD τ sig) → Buf (Elt Ideal) ℓ) (c : Dev nD) :
    Cert.ReferenceIdeal.Value.res_main_v58 m c
      = layerLin (val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)))
          (val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)))
          (m ((c.tc : Thread nD τ).loc main_arg4)) (m ((c.tc : Thread nD τ).loc main_arg6)) (fun q => m ((c.tc : Thread nD τ).loc main_arg5) (ix1 q)) :=
  (val_main_v58_eq m c).trans (out_eq _ _ _ _ _ _ _ _)

end Cert.ReferenceIdeal.RefValue

end
-- ==== Proof.Bridge.lean ====
import proofs.«149354_j31817117729422_1_alg».proof.Proof.KRun
import proofs.«149354_j31817117729422_1_alg».proof.Proof.Region0
import proofs.«149354_j31817117729422_1_alg».proof.Proof.Region1
import proofs.«149354_j31817117729422_1_alg».proof.Proof.HostK
import proofs.«149354_j31817117729422_1_alg».proof.Proof.RefValue
import Idealize.ShloMosaic.Lib.ValueLayout

/-! # The kernel's result is the reference's

The kernel's program ends with its result buffer at what the second pallas_call leaves: the second layer's combine of
the second mean rows and the first pallas_call's output. The first pallas_call's output is the first layer's combine,
cut at zero, of the first mean rows and the node features. Each mean is the aggregation times the column
`1 / max(deg, 1)`, which is the aggregation divided by `max(deg, 1)` — the reference's mean — because the degree is
a real; the aggregations themselves are the same gather and scatter-add of the same operands on both sides. So the
result is the reference's final stage of the same arguments, layer by layer. -/

set_option maxRecDepth 16384

noncomputable section

namespace Cert.Proof.Bridge

open Cert.KernelIdeal Cert.KernelIdeal.Gen Cert.Sage
open Idealize.ShloMosaic Idealize.ShloMosaic.TcCoe Idealize.ShloMosaic.ValueIdx Idealize.SL.Sem

/-- The first mean: the kernel's aggregation of the features times the reciprocal degrees is the reference's quotient. -/
theorem mean1 (x0 : (⟨S100000x128, .f32⟩ : BufTy).Contents (Elt Ideal)) (x7 : (⟨S2x1600000, .i32⟩ : BufTy).Contents (Elt Ideal)) :
    Cert.KernelIdeal.HostK.meanAgg x0 x7 = Cert.ReferenceIdeal.Read.val_main_v22 (F := Ideal) x0 x7 :=
  Cert.ReferenceIdeal.RefValue.mul_recip_eq (Cert.ReferenceIdeal.Read.val_main_v13 (F := Ideal) x0 x7) x7

/-- The second mean, of the first layer's result. -/
theorem mean2 (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x1600000, .i32⟩ : BufTy).Contents (Elt Ideal)) :
    Cert.KernelIdeal.HostK.meanAgg (Cert.ReferenceIdeal.Read.val_main_v29 (F := Ideal) x0 x1 x2 x3 x7) x7
      = Cert.ReferenceIdeal.Read.val_main_v52 (F := Ideal) x0 x1 x2 x3 x7 :=
  Cert.ReferenceIdeal.RefValue.mul_recip_eq (Cert.ReferenceIdeal.Read.val_main_v43 (F := Ideal) x0 x1 x2 x3 x7) x7

/-- A bias [128] laid out as a row [1, 128], read at `(0, q)`: its entry `q`. -/
theorem bias1 (x2 : (⟨S128, .f32⟩ : BufTy).Contents (Elt Ideal)) :
    (fun q : Fin 128 => shapeCast S1x128 x2 shapeCasts_S128_S1x128 (ix2 0 q)) = fun q => x2 (ix1 q) :=
  funext fun q => shapeCast_a_1a_apply x2 shapeCasts_S128_S1x128 0 q

/-- The same for the second layer's bias [64]. -/
theorem bias2 (x5 : (⟨S64, .f32⟩ : BufTy).Contents (Elt Ideal)) :
    (fun q : Fin 64 => shapeCast S1x64 x5 shapeCasts_S64_S1x64 (ix2 0 q)) = fun q => x5 (ix1 q) :=
  funext fun q => shapeCast_a_1a_apply x5 shapeCasts_S64_S1x64 0 q

variable (m : (ℓ : Loc nD τ sig) → Buf (Elt Ideal) ℓ) (ρ : Dev nD → PrngReg)

/-- The first pallas_call leaves the reference's first layer in its output array. -/
theorem hidden (c : Dev nD) :
    W2 m ρ c (Proc.devRef .tc main_v26)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  rw [Cert.ReferenceIdeal.RefValue.hidden_eq]
  refine (W2_arr m ρ c 5).trans ((Cert.KernelIdeal.Region0.final (V1 m ρ) c).trans ?_)
  show layerRelu (V1 m ρ c main_v24) (V1 m ρ c main_arg0) (V1 m ρ c main_arg1) (V1 m ρ c main_arg3)
    (fun q => V1 m ρ c main_v25 (ix2 0 q)) = _
  rw [Cert.KernelIdeal.HostK.V1_mean, Cert.KernelIdeal.HostK.V1_arg0, Cert.KernelIdeal.HostK.V1_arg1,
    Cert.KernelIdeal.HostK.V1_arg3, Cert.KernelIdeal.HostK.V1_bias, mean1, bias1]

/-- THE RESULT: the second pallas_call leaves the reference's final stage in the result buffer. -/
theorem result (c : Dev nD) :
    W4 m ρ c (Proc.devRef .tc main_v40)
      = layerLin (Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg7)))
          (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg7)))
          (m ((c : Thread nD τ).loc main_arg4)) (m ((c : Thread nD τ).loc main_arg6)) (fun q => (m ((c : Thread nD τ).loc main_arg5)) (ix1 q)) := by
  refine (W4_arr m ρ c 5).trans ((Cert.KernelIdeal.Region1.final (V3 m ρ) c).trans ?_)
  show layerLin (V3 m ρ c main_v38) (V3 m ρ c main_v26) (V3 m ρ c main_arg4) (V3 m ρ c main_arg6)
    (fun q => V3 m ρ c main_v39 (ix2 0 q)) = _
  rw [Cert.KernelIdeal.HostK.V3_mean, Cert.KernelIdeal.HostK.V3_hidden, Cert.KernelIdeal.HostK.V3_arg4,
    Cert.KernelIdeal.HostK.V3_arg6, Cert.KernelIdeal.HostK.V3_bias, hidden, mean2, bias2]

end Cert.Proof.Bridge

end
-- ==== Proof.lean ====
/- A two-layer graph network with mean aggregation, `out = L2(relu(L1(x)))` with
   `L(h) = mean_agg(h) @ Wl + b + h @ Wr`, against its jnp reference, over the extended reals.

   Both programs aggregate with the same host operations: the rows of `h` gathered at the edges' sources and
   scattered-and-added by destination, and the degree as a scatter-add of ones. They differ in how the mean is formed
   and where the dense part runs. The kernel's program multiplies the aggregation by the column `1 / max(deg, 1)` and
   runs each layer's combine `(mean @ Wl + b) + h @ Wr` (cut at zero after the first) as a pallas_call over 20 blocks
   of 5000 nodes, two block products into zero accumulators; the reference divides the aggregation by `max(deg, 1)`
   and takes two whole-array products. Over the extended reals a block product into zero and the whole-array product
   are the same sum over the 128 input features at every entry, the change to bf16 is the identity, and — the one law
   that needs an argument — multiplying by `1 / d` is dividing by `d` for every extended real as soon as `d` is a
   nonzero real; `d = max(deg, 1)` is one, the degree being a count of edges (Proof/Law.lean).

   Proof/Region0.lean and Proof/Region1.lean read each pallas_call's output array as the layer's combine of the arrays
   it found; Proof/HostK.lean reads the host operations around them; Proof/RefValue.lean reads the reference layer by
   layer and proves the mean law on its stages; Proof/Bridge.lean joins them: the kernel's result buffer holds the
   reference's final stage of the same arguments. Proof/KRun.lean is the program's run with the result buffer named.
   No precondition is used: the claim holds for every input, finite or not. -/
import proofs.«149354_j31817117729422_1_alg».proof.Defs
import proofs.«149354_j31817117729422_1_alg».proof.Proof.Gen.Kernel
import proofs.«149354_j31817117729422_1_alg».proof.Proof.Gen.Kernel.Frame
import proofs.«149354_j31817117729422_1_alg».proof.Proof.Gen.KernelIdeal
import proofs.«149354_j31817117729422_1_alg».proof.Proof.Gen.KernelIdeal.Frame
import proofs.«149354_j31817117729422_1_alg».proof.Proof.Gen.ReferenceIdeal
import proofs.«149354_j31817117729422_1_alg».proof.Proof.Gen.ReferenceIdeal.Run
import proofs.«149354_j31817117729422_1_alg».proof.Proof.Gen.Pre_finite_inputs
import proofs.«149354_j31817117729422_1_alg».proof.Proof.Bridge
import Idealize.ShloMosaic.Adequacy
import Idealize.ShloMosaic.Init

noncomputable section

namespace Cert.Proof

open Idealize.ShloMosaic Idealize.SL.Sem Cert.Sage Idealize.ShloMosaic.ValueIdx

/-- The kernel's program, at the word level, runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- From memories agreeing on the arguments both programs end with the reference's final stage of those arguments in
    their result buffers: the kernel's by Proof/Bridge.lean, the reference's by its run read layer by layer. -/
theorem algebraic : Cert.algebraic_KernelIdeal_ReferenceIdeal := by
  intro m ρ m' ρ' _ hagree
  refine ⟨fun c => layerLin
      (Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (fun q => (m ((c.tc : Thread Cert.KernelIdeal.nD Cert.KernelIdeal.τ).loc Cert.KernelIdeal.main_arg5)) (ix1 q)), ?_, ?_⟩
  · exact (θ_run Cert.KernelIdeal.defs _ _).mono (fun r h c => ⟨(h c).1.trans (Cert.Proof.Bridge.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
